-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_arg5 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S2048x4096 .f32) (main_arg3 : FVec F S2048 .f32) (main_arg4 : FVec F S2048x2048 .f32) (main_arg5 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S128x2048 : Shape := ⟨2, ![128, 2048]⟩

abbrev nBuf : Space → Nat
  | .hbm => 20
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S4096x2048, .bf16⟩
  | .hbm, ⟨15, _⟩ => ⟨S4096x2048, .bf16⟩
  | .hbm, ⟨16, _⟩ => ⟨S1x2048, .f32⟩
  | .hbm, ⟨17, _⟩ => ⟨S1x2048, .f32⟩
  | .hbm, ⟨18, _⟩ => ⟨S4096x2048, .f32⟩
  | .hbm, ⟨19, _⟩ => ⟨S4096x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2048x4096_S2048x2048_0_0 : S2048x4096.Slices ![0, 0] S2048x2048
  slices_S2048x4096_S2048x2048_0_2048 : S2048x4096.Slices ![0, 2048] S2048x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .bf16 = 32 ∨ (Rect.block (s := S4096x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .bf16 = 32 ∨ (Rect.block (s := S4096x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S4096x2048.size a
  hwx0_7 : ∀ i : grid0.Coords, EltTy.bits .f32 = 32 ∨ (Rect.block (s := S4096x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S4096x2048.size a
  hwx0_8 : ∀ i : grid0.Coords, EltTy.bits .f32 = 32 ∨ (Rect.block (s := S4096x2048) S128x2048.size (cc0_transform_8 i) (hinb0_8 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v8) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S128x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S4096x4096 : Shape := ⟨2, ![4096, 4096]⟩
abbrev S1x2048 : Shape := ⟨2, ![1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S4096x4096, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x4096_S2048x4096_S4096x2048_1_1_0_0_n_n_wf : DotDims.WF S4096x4096 S2048x4096 S4096x2048 [1] [1] [0] [0] [] []
  dot_S4096x2048_S2048x2048_S4096x2048_1_1_0_0_n_n_wf : DotDims.WF S4096x2048 S2048x2048 S4096x2048 [1] [1] [0] [0] [] []

variable [Facts₀]

def dot_S4096x4096_S2048x4096_S4096x2048_1_1_0_0_n_n : DotDims S4096x4096 S2048x4096 S4096x2048 where
  lhsContracting := [1]
  rhsContracting := [1]
  lhsNonContracting := [0]
  rhsNonContracting := [0]
  lhsBatch := []
  rhsBatch := []
  wf := dot_S4096x4096_S2048x4096_S4096x2048_1_1_0_0_n_n_wf
def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.CellSpec.lean ====
/-
  One step of a recurrent cell over a batch, as a function of its six arrays, on the extended reals.

  With `x` and `hid` of shape [4096, 2048], the joined weight matrix `W` of shape [2048, 4096] (its first 2048
  columns meet `x`, its last 2048 columns meet `hid`), the bias rows `b`, `bo` of length 2048 and the read-out
  matrix `Who` of shape [2048, 2048]:

    newHidden[p, q] = tanh ((Σ_k x[p, k] · W[q, k] + Σ_k hid[p, k] · W[q, 2048 + k]) + b[q])
    output[p, o]    = Σ_h newHidden[p, h] · Who[o, h] + bo[o]

  The only law used to join this to a contraction over the joined row [x | hid] of length 4096 is that a sum over
  4096 columns is the sum over the first 2048 plus the sum over the last 2048: true in every commutative monoid, so
  nothing here asks the entries to be finite.
-/
import Idealize.ShloMosaic.PureOps.Ideal
import Idealize.ShloMosaic.Lib.ValueIdx
import Mathlib.Algebra.BigOperators.Fin

noncomputable section

namespace Cert.Cell

open Idealize.ShloMosaic Idealize.ShloMosaic.ValueIdx

/-- The shapes: a batch of rows, the joined weight matrix, a square weight matrix, a bias row. -/
abbrev Rows : Shape := ⟨2, ![4096, 2048]⟩
abbrev Joined : Shape := ⟨2, ![2048, 4096]⟩
abbrev Square : Shape := ⟨2, ![2048, 2048]⟩
abbrev Bias : Shape := ⟨1, ![2048]⟩

/-- Column `k` of the half of the joined weight matrix that meets the input. -/
abbrev inCol (k : Fin 2048) : Fin 4096 := ⟨k.val, by omega⟩
/-- Column `k` of the half that meets the previous hidden state. -/
abbrev hidCol (k : Fin 2048) : Fin 4096 := ⟨2048 + k.val, by omega⟩

/-- A sum over the 4096 joined columns is the sum over the input half plus the sum over the hidden half. -/
theorem sum_cols {M : Type*} [AddCommMonoid M] (f : Fin 4096 → M) :
    ∑ k : Fin 4096, f k = ∑ k : Fin 2048, f (inCol k) + ∑ k : Fin 2048, f (hidCol k) :=
  Fin.sum_univ_add (a := 2048) (b := 2048) f

/-- The pre-activation of hidden unit `q` on batch row `p`. -/
def preAct (x hid : FVec Ideal Rows .f32) (W : FVec Ideal Joined .f32) (b : FVec Ideal Bias .f32)
    (p : Fin 4096) (q : Fin 2048) : EReal :=
  (∑ k : Fin 2048, x (ix2 p k) * W (ix2 q (inCol k)) + ∑ k : Fin 2048, hid (ix2 p k) * W (ix2 q (hidCol k))) + b (ix1 q)

/-- The new hidden state. -/
def newHidden (x hid : FVec Ideal Rows .f32) (W : FVec Ideal Joined .f32) (b : FVec Ideal Bias .f32) :
    FVec Ideal Rows .f32 :=
  fun j => Ideal.tanh (preAct x hid W b (j 0) (j 1))

/-- The read-out of a hidden state. -/
def output (nh : FVec Ideal Rows .f32) (Who : FVec Ideal Square .f32) (bo : FVec Ideal Bias .f32) :
    FVec Ideal Rows .f32 :=
  fun j => (∑ h : Fin 2048, nh (ix2 (j 0) h) * Who (ix2 (j 1) h)) + bo (ix1 (j 1))

theorem newHidden_apply (x hid : FVec Ideal Rows .f32) (W : FVec Ideal Joined .f32) (b : FVec Ideal Bias .f32)
    (p : Fin 4096) (q : Fin 2048) : newHidden x hid W b (ix2 p q) = Ideal.tanh (preAct x hid W b p q) := rfl

theorem output_apply (nh : FVec Ideal Rows .f32) (Who : FVec Ideal Square .f32) (bo : FVec Ideal Bias .f32)
    (p : Fin 4096) (o : Fin 2048) :
    output nh Who bo (ix2 p o) = (∑ h : Fin 2048, nh (ix2 p h) * Who (ix2 o h)) + bo (ix1 o) := rfl

end Cert.Cell

end
-- ==== Proof.RefCell.lean ====
/-
  The reference program computes the cell of CellSpec.lean.

  The reference joins each batch row [x | hid] into one row of length 4096 and contracts it with a row of the joined
  weight matrix. Splitting that contraction at column 2048, the first half reads `x` and the second half reads `hid`
  (a joined row at column k < 2048 is x's column k; at column 2048 + k it is hid's column k), which is the
  pre-activation as CellSpec.lean writes it. The bias is broadcast along the batch, and the host's tanh is the
  extended reals' tanh. The read-out is one more contraction and one more broadcast bias.
-/
import proofs.«154706_j32607391711506_1_alg».proof.Proof.Gen.ReferenceIdeal.Read
import proofs.«154706_j32607391711506_1_alg».proof.Proof.CellSpec

noncomputable section

namespace Cert.ReferenceIdeal.Cell

open Cert.ReferenceIdeal Cert.ReferenceIdeal.Read Cert.Cell
open Idealize.ShloMosaic Idealize.ShloMosaic.ValueIdx

/-- The joined row at a column of its first half is the input's column. -/
theorem joined_in (x0 x1 : FVec Ideal Rows .f32) (i : S4096x2048.Idx) (k : Fin 2048) :
    val_main_v0 (F := Ideal) x0 x1 (lidx_main_v1 i (inCol k)) = x0 (ix2 (i 0) k) := by
  unfold val_main_v0
  exact concatenate_pair_apply_left (1 : Fin S4096x4096.rank) x0 x1 _ (lidx_main_v1 i (inCol k)) rfl (ix2 (i 0) k)
    (fun b => match b with | ⟨0, _⟩ => rfl | ⟨1, _⟩ => rfl)

/-- The joined row at a column of its second half is the hidden state's column. -/
theorem joined_hid (x0 x1 : FVec Ideal Rows .f32) (i : S4096x2048.Idx) (k : Fin 2048) :
    val_main_v0 (F := Ideal) x0 x1 (lidx_main_v1 i (hidCol k)) = x1 (ix2 (i 0) k) := by
  unfold val_main_v0
  exact concatenate_pair_apply_right (1 : Fin S4096x4096.rank) x0 x1 _ (lidx_main_v1 i (hidCol k)) rfl rfl (ix2 (i 0) k)
    (fun b hb => match b, hb with | ⟨0, _⟩, _ => rfl | ⟨1, _⟩, hb => absurd rfl hb)
    (Nat.add_comm _ _)

/-- The weight row the first contraction reads: row `i 1`, the contraction's column. -/
theorem wrow_eq (i : S4096x2048.Idx) (k : Fin 4096) : ridx_main_v1 i k = ix2 (i 1) k :=
  funext fun a => match a with | ⟨0, _⟩ => rfl | ⟨1, _⟩ => rfl

/-- A bias broadcast along the batch is read at the column. -/
theorem bias_eq (i : S4096x2048.Idx) : idx_main_v2 (idx_main_v3 i) = ix1 (i 1) :=
  funext fun a => match a with | ⟨0, _⟩ => rfl

theorem hrow_eq (i : S4096x2048.Idx) (k : Fin 2048) : lidx_main_v6 i k = ix2 (i 0) k :=
  funext fun a => match a with | ⟨0, _⟩ => rfl | ⟨1, _⟩ => rfl

theorem orow_eq (i : S4096x2048.Idx) (k : Fin 2048) : ridx_main_v6 i k = ix2 (i 1) k :=
  funext fun a => match a with | ⟨0, _⟩ => rfl | ⟨1, _⟩ => rfl

theorem obias_eq (i : S4096x2048.Idx) : idx_main_v7 (idx_main_v8 i) = ix1 (i 1) :=
  funext fun a => match a with | ⟨0, _⟩ => rfl

/-- The reference's hidden state is `newHidden`. -/
theorem hidden_eq (x0 x1 : FVec Ideal Rows .f32) (x2 : FVec Ideal Joined .f32) (x3 : FVec Ideal Bias .f32) :
    val_main_v5 (F := Ideal) x0 x1 x2 x3 = newHidden x0 x1 x2 x3 := by
  funext i
  rw [val_main_v5_apply, val_main_v4_apply, val_main_v1_apply, val_main_v3_apply, val_main_v2_apply, sum_cols]
  simp only [joined_in, joined_hid, wrow_eq, bias_eq, Ideal.hostUnary_tanh_def, Ideal.addf_def]
  rfl

/-- The reference's output is `output` of that hidden state. -/
theorem output_eq (x0 x1 : FVec Ideal Rows .f32) (x2 : FVec Ideal Joined .f32) (x3 : FVec Ideal Bias .f32)
    (x4 : FVec Ideal Square .f32) (x5 : FVec Ideal Bias .f32) :
    val_main_v9 (F := Ideal) x0 x1 x2 x3 x4 x5 = output (newHidden x0 x1 x2 x3) x4 x5 := by
  funext i
  rw [val_main_v9_apply, val_main_v6_apply, val_main_v8_apply, val_main_v7_apply, hidden_eq]
  simp only [hrow_eq, orow_eq, obias_eq, Ideal.addf_def]
  rfl

end Cert.ReferenceIdeal.Cell

end
-- ==== Proof.CellArrays.lean ====
/-
  What the kernel's seven staged arrays hold when the region starts, entry by entry, in terms of the program's
  arguments, on the extended reals.

  Before the region the program cuts the joined weight matrix into its input half and its hidden half, transposes
  each half and the read-out matrix so that the contracted axis comes first, writes the two bias vectors as one-row
  matrices, and narrows the float format of every matrix operand (which changes nothing here). So:

    xs[p, k] = x[p, k]            hs[p, k]  = hid[p, k]
    wx[k, q] = W[q, k]            wh[k, q]  = W[q, 2048 + k]        who[h, o] = Who[o, h]
    b[0, q]  = b_ih[q]            bo[0, o]  = b_ho[o]
-/
import proofs.«154706_j32607391711506_1_alg».proof.Proof.Gen.KernelIdeal.Frame
import proofs.«154706_j32607391711506_1_alg».proof.Proof.CellSpec
import Idealize.ShloMosaic.Lib.ValueLayout
import Idealize.ShloMosaic.Lib.StableHlo.Run

noncomputable section

namespace Cert.KernelIdeal.Cell

open Cert.KernelIdeal Cert.KernelIdeal.Gen Cert.Cell
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The program's six arguments on core `c`. -/
abbrev argX (c : Dev nD) : FVec Ideal Rows .f32 := m ((c : Thread nD τ).loc main_arg0)
abbrev argH (c : Dev nD) : FVec Ideal Rows .f32 := m ((c : Thread nD τ).loc main_arg1)
abbrev argW (c : Dev nD) : FVec Ideal Joined .f32 := m ((c : Thread nD τ).loc main_arg2)
abbrev argB (c : Dev nD) : FVec Ideal Bias .f32 := m ((c : Thread nD τ).loc main_arg3)
abbrev argWho (c : Dev nD) : FVec Ideal Square .f32 := m ((c : Thread nD τ).loc main_arg4)
abbrev argBo (c : Dev nD) : FVec Ideal Bias .f32 := m ((c : Thread nD τ).loc main_arg5)

/-- The staged input rows are the argument's. -/
theorem xs_apply (c : Dev nD) (i : S4096x2048.Idx) : (V m c main_v8 : S4096x2048.Idx → EReal) i = argX m c i := by
  have e : (V m c main_v8 : S4096x2048.Idx → EReal) = truncf .bf16 (argX m c) bitsLt_bf16_f32 := by
    dsimp only [V, hostOps0]; after_results
  rw [e]; rfl

/-- The staged hidden rows are the argument's. -/
theorem hs_apply (c : Dev nD) (i : S4096x2048.Idx) : (V m c main_v9 : S4096x2048.Idx → EReal) i = argH m c i := by
  have e : (V m c main_v9 : S4096x2048.Idx → EReal) = truncf .bf16 (argH m c) bitsLt_bf16_f32 := by
    dsimp only [V, hostOps0]; after_results
  rw [e]; rfl

/-- The staged input weights, contraction first: entry (k, q) is the joined matrix's row q at input column k. -/
theorem wx_apply (c : Dev nD) (k q : Fin 2048) :
    (V m c main_v3 : S2048x2048.Idx → EReal) (ix2 k q) = argW m c (ix2 q (inCol k)) := by
  have e : (V m c main_v3 : S2048x2048.Idx → EReal) = truncf .bf16 (transpose S2048x2048 [1, 0]
      (extractStridedSlice S2048x2048 ![0, 0] (argW m c) slices_S2048x4096_S2048x2048_0_0)
      transposes_S2048x2048_S2048x2048_1_0) bitsLt_bf16_f32 := by
    dsimp only [V, hostOps0]; after_results
  rw [e, truncf_apply, transpose_ix2_apply]
  exact slice2_axis1_apply 0 _ _ q k (inCol k) (Nat.zero_add _).symm

/-- The staged hidden weights: entry (k, q) is the joined matrix's row q at hidden column k. -/
theorem wh_apply (c : Dev nD) (k q : Fin 2048) :
    (V m c main_v5 : S2048x2048.Idx → EReal) (ix2 k q) = argW m c (ix2 q (hidCol k)) := by
  have e : (V m c main_v5 : S2048x2048.Idx → EReal) = truncf .bf16 (transpose S2048x2048 [1, 0]
      (extractStridedSlice S2048x2048 ![0, 2048] (argW m c) slices_S2048x4096_S2048x2048_0_2048)
      transposes_S2048x2048_S2048x2048_1_0) bitsLt_bf16_f32 := by
    dsimp only [V, hostOps0]; after_results
  rw [e, truncf_apply, transpose_ix2_apply]
  exact slice2_axis1_apply 2048 _ _ q k (hidCol k) rfl

/-- The staged read-out weights: entry (h, o) is the read-out matrix's row o at column h. -/
theorem who_apply (c : Dev nD) (h o : Fin 2048) :
    (V m c main_v7 : S2048x2048.Idx → EReal) (ix2 h o) = argWho m c (ix2 o h) := by
  have e : (V m c main_v7 : S2048x2048.Idx → EReal) = truncf .bf16 (transpose S2048x2048 [1, 0]
      (argWho m c) transposes_S2048x2048_S2048x2048_1_0) bitsLt_bf16_f32 := by
    dsimp only [V, hostOps0]; after_results
  rw [e, truncf_apply, transpose_ix2_apply]

/-- The hidden bias as a one-row matrix. -/
theorem b_apply (c : Dev nD) (q : Fin 2048) :
    (V m c main_v10 : S1x2048.Idx → EReal) (ix2 (0 : Fin 1) q) = argB m c (ix1 q) := by
  have e : (V m c main_v10 : S1x2048.Idx → EReal) = shapeCast S1x2048 (argB m c) shapeCasts_S2048_S1x2048 := by
    dsimp only [V, hostOps0]; after_results; rfl
  rw [e, shapeCast_a_1a_apply]

/-- The read-out bias as a one-row matrix. -/
theorem bo_apply (c : Dev nD) (o : Fin 2048) :
    (V m c main_v11 : S1x2048.Idx → EReal) (ix2 (0 : Fin 1) o) = argBo m c (ix1 o) := by
  have e : (V m c main_v11 : S1x2048.Idx → EReal) = shapeCast S1x2048 (argBo m c) shapeCasts_S2048_S1x2048 := by
    dsimp only [V, hostOps0]; after_results; rfl
  rw [e, shapeCast_a_1a_apply]

end Cert.KernelIdeal.Cell

end
-- ==== Proof.CellBody.lean ====
/-
  What the kernel body computes on one batch tile of 128 rows, entry by entry, on the extended reals.

  With the tile's rows of x and hid (each [128, 2048]), the three resident weight matrices laid out contraction-first
  ([2048, 2048]: entry (k, q) multiplies column k of the left operand into output column q) and the two bias rows
  ([1, 2048]), the body stores

    hidden tile[p, q] = tanh ((Σ_k x[p, k] · wx[k, q] + Σ_k hid[p, k] · wh[k, q]) + b[0, q])
    output tile[p, o] = Σ_h hidden tile[p, h] · who[h, o] + bo[0, o]

  A matrix product into a zero accumulator is, at each entry, the plain sum of products over the one contracted
  axis; narrowing the hidden tile to a shorter float format before the second product does not change it here.
-/
import proofs.«154706_j32607391711506_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cell

open Cert.KernelIdeal Cert.KernelIdeal.Gen
open Idealize.ShloMosaic Idealize.ShloMosaic.ValueIdx

/-! ## The tile product's operand indices, axis by axis -/

theorem lhs_tile_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_tile_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_tile_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_tile_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- A tile product into the zero accumulator: entry (p, q) is the sum over k of a[p, k] · b[k, q]. -/
theorem tile_matmul (a : FVec Ideal S128x2048 .bf16) (b : FVec Ideal S2048x2048 .bf16) (p : Fin 128) (q : Fin 2048) :
    matmul dot_S128x2048_S2048x2048_S128x2048_1_0_0_1_n_n none a b (constant (F := Ideal) S128x2048 .f32 0x00000000#32) (ix2 p q)
      = ∑ k : Fin 2048, a (ix2 p k) * b (ix2 k q) := by
  simp only [matmul]
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun ax => Fin.ext (by
    match ax with
    | ⟨0, _⟩ => exact lhs_tile_0 _ _
    | ⟨1, _⟩ => exact (lhs_tile_1 _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun ax => Fin.ext (by
    match ax with
    | ⟨0, _⟩ => exact (rhs_tile_0 _ _).trans hk
    | ⟨1, _⟩ => exact rhs_tile_1 _ _)
  rw [el, er]

/-! ## The two stored tiles -/

/-- The hidden tile at (p, q). -/
theorem hidden_tile_apply (v0 : Vec Ideal S128x2048 .bf16) (v2 : Vec Ideal S2048x2048 .bf16) (v5 : Vec Ideal S128x2048 .bf16)
    (v7 : Vec Ideal S2048x2048 .bf16) (v11 : Vec Ideal S1x2048 .f32) (p : Fin 128) (q : Fin 2048) :
    k0_pay1 v0 v2 v5 v7 v11 (ix2 p q)
      = Ideal.tanh ((∑ k : Fin 2048, v0 (ix2 p k) * v2 (ix2 k q) + ∑ k : Fin 2048, v5 (ix2 p k) * v7 (ix2 k q))
          + v11 (ix2 (0 : Fin 1) q)) := by
  unfold k0_pay1
  simp only [shapeCast_self, Idealize.ShloMosaic.tanh, addf_apply, tile_matmul, broadcastTo_1b_ab_apply, Ideal.tanh_def]

/-- The output tile at (p, o), over the hidden tile. -/
theorem output_tile_apply (v0 : Vec Ideal S128x2048 .bf16) (v2 : Vec Ideal S2048x2048 .bf16) (v5 : Vec Ideal S128x2048 .bf16)
    (v7 : Vec Ideal S2048x2048 .bf16) (v11 : Vec Ideal S1x2048 .f32) (v18 : Vec Ideal S2048x2048 .bf16) (v21 : Vec Ideal S1x2048 .f32)
    (p : Fin 128) (o : Fin 2048) :
    k0_pay2 v0 v2 v5 v7 v11 v18 v21 (ix2 p o)
      = (∑ h : Fin 2048, k0_pay1 v0 v2 v5 v7 v11 (ix2 p h) * v18 (ix2 h o)) + v21 (ix2 (0 : Fin 1) o) := by
  unfold k0_pay2
  simp only [shapeCast_self, addf_apply, tile_matmul, broadcastTo_1b_ab_apply, truncf_apply]

end Cert.KernelIdeal.Cell

end
-- ==== Proof.CellTile.lean ====
/-
  One batch tile of the kernel is the matching rows of the cell of CellSpec.lean.

  Let a tile's rows be rows `row p` (p < 128) of the batch. If the tile's operands are the matching entries of the
  arguments — its rows of x and hid, the weight matrices with the contracted axis first, the biases as one-row
  matrices — then entry (p, q) of the tile the body stores is entry (row p, q) of `newHidden`, resp. of `output`:
  the two sums of the hidden tile are literally the two half-sums of the pre-activation.
-/
import proofs.«154706_j32607391711506_1_alg».proof.Proof.CellBody
import proofs.«154706_j32607391711506_1_alg».proof.Proof.CellSpec

noncomputable section

namespace Cert.KernelIdeal.Cell

open Cert.KernelIdeal Cert.KernelIdeal.Gen Cert.Cell
open Idealize.ShloMosaic Idealize.ShloMosaic.ValueIdx

/-- The hidden tile is the tile's rows of `newHidden`. -/
theorem hidden_tile_eq (X H : FVec Ideal Rows .f32) (W : FVec Ideal Joined .f32) (B : FVec Ideal Bias .f32)
    (x0 x1 : Vec Ideal S128x2048 .bf16) (x2 x3 : Vec Ideal S2048x2048 .bf16) (x5 : Vec Ideal S1x2048 .f32)
    (row : Fin 128 → Fin 4096)
    (h0 : ∀ (p : Fin 128) (k : Fin 2048), x0 (ix2 p k) = X (ix2 (row p) k))
    (h1 : ∀ (p : Fin 128) (k : Fin 2048), x1 (ix2 p k) = H (ix2 (row p) k))
    (h2 : ∀ k q : Fin 2048, x2 (ix2 k q) = W (ix2 q (inCol k)))
    (h3 : ∀ k q : Fin 2048, x3 (ix2 k q) = W (ix2 q (hidCol k)))
    (h5 : ∀ q : Fin 2048, x5 (ix2 (0 : Fin 1) q) = B (ix1 q))
    (p : Fin 128) (q : Fin 2048) :
    k0_pay1 x0 x2 x1 x3 x5 (ix2 p q) = newHidden X H W B (ix2 (row p) q) := by
  rw [hidden_tile_apply, newHidden_apply]
  unfold preAct
  simp only [h0, h1, h2, h3, h5]

/-- The output tile is the tile's rows of `output` of `newHidden`. -/
theorem output_tile_eq (X H : FVec Ideal Rows .f32) (W : FVec Ideal Joined .f32) (B : FVec Ideal Bias .f32)
    (Who : FVec Ideal Square .f32) (Bo : FVec Ideal Bias .f32)
    (x0 x1 : Vec Ideal S128x2048 .bf16) (x2 x3 x4 : Vec Ideal S2048x2048 .bf16) (x5 x6 : Vec Ideal S1x2048 .f32)
    (row : Fin 128 → Fin 4096)
    (h0 : ∀ (p : Fin 128) (k : Fin 2048), x0 (ix2 p k) = X (ix2 (row p) k))
    (h1 : ∀ (p : Fin 128) (k : Fin 2048), x1 (ix2 p k) = H (ix2 (row p) k))
    (h2 : ∀ k q : Fin 2048, x2 (ix2 k q) = W (ix2 q (inCol k)))
    (h3 : ∀ k q : Fin 2048, x3 (ix2 k q) = W (ix2 q (hidCol k)))
    (h4 : ∀ h o : Fin 2048, x4 (ix2 h o) = Who (ix2 o h))
    (h5 : ∀ q : Fin 2048, x5 (ix2 (0 : Fin 1) q) = B (ix1 q))
    (h6 : ∀ o : Fin 2048, x6 (ix2 (0 : Fin 1) o) = Bo (ix1 o))
    (p : Fin 128) (o : Fin 2048) :
    k0_pay2 x0 x2 x1 x3 x5 x4 x6 (ix2 p o) = output (newHidden X H W B) Who Bo (ix2 (row p) o) := by
  rw [output_tile_apply, output_apply]
  simp only [hidden_tile_eq X H W B x0 x1 x2 x3 x5 row h0 h1 h2 h3 h5, h4, h6]

end Cert.KernelIdeal.Cell

end
-- ==== Proof.CellBlocks.lean ====
/-
  From tiles to arrays: what the kernel's run leaves in its two result arrays.

  The grid has 32 points; point t works on batch rows 128 t … 128 t + 127. Its blocks of x and hid are those rows;
  the three weight matrices and the two bias rows are staged whole at every point. So by CellTile.lean the hidden
  tile and the output tile that point t writes back are rows 128 t … 128 t + 127 of `newHidden` and of
  `output newHidden` of the program's arguments. Row r of the batch lies in the tile of point r / 128, so the 32
  tiles cover both result arrays, which therefore end holding exactly those two functions of the arguments.
-/
import proofs.«154706_j32607391711506_1_alg».proof.Proof.Gen.KernelIdeal.Value
import proofs.«154706_j32607391711506_1_alg».proof.Proof.CellArrays
import proofs.«154706_j32607391711506_1_alg».proof.Proof.CellTile
import Idealize.ShloMosaic.Lib.Pipeline.Value

noncomputable section

namespace Cert.KernelIdeal.Cell

open Cert.KernelIdeal Cert.KernelIdeal.Gen Cert.KernelIdeal.Value Cert.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The windows' block indices over the grid -/

/-- The row-tiled windows (x, hid and the two results) are at block (t, 0) at point t. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
/-- The weights and biases are at block (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Row `p` of the tile of point `t` is batch row `128 t + p`. -/
def tileRow (t : Fin cfg0.N) (p : Fin 128) : Fin 4096 :=
  ⟨128 * t.val + p.val, by have h : t.val < 32 := Nat.lt_of_lt_of_eq t.isLt N_0; omega⟩

/-! ## Each input window's block at a point, entry by entry -/

theorem xblk_apply (c : Dev nD) (t : Fin cfg0.N) (p : Fin 128) (k : Fin 2048) :
    (iblk m c 0 t : Vec Ideal S128x2048 .bf16) (ix2 p k) = argX m c (ix2 (tileRow t p) k) := by
  obtain ⟨e0, e1⟩ := idx0 t
  unfold iblk
  rw [View.read_apply]
  show (V m c main_v8 : S4096x2048.Idx → EReal) _ = _
  rw [xs_apply]
  congr 1
  funext a
  apply Fin.ext
  match a with
  | ⟨0, _⟩ => show win0_0.index t (0 : Fin 2) * 128 + 1 * p.val = 128 * t.val + p.val; rw [e0]; omega
  | ⟨1, _⟩ => show win0_0.index t (1 : Fin 2) * 2048 + 1 * k.val = k.val; rw [e1]; omega

theorem hblk_apply (c : Dev nD) (t : Fin cfg0.N) (p : Fin 128) (k : Fin 2048) :
    (iblk m c 1 t : Vec Ideal S128x2048 .bf16) (ix2 p k) = argH m c (ix2 (tileRow t p) k) := by
  obtain ⟨e0, e1⟩ := idx1 t
  unfold iblk
  rw [View.read_apply]
  show (V m c main_v9 : S4096x2048.Idx → EReal) _ = _
  rw [hs_apply]
  congr 1
  funext a
  apply Fin.ext
  match a with
  | ⟨0, _⟩ => show win0_1.index t (0 : Fin 2) * 128 + 1 * p.val = 128 * t.val + p.val; rw [e0]; omega
  | ⟨1, _⟩ => show win0_1.index t (1 : Fin 2) * 2048 + 1 * k.val = k.val; rw [e1]; omega

theorem wxblk_apply (c : Dev nD) (t : Fin cfg0.N) (k q : Fin 2048) :
    (iblk m c 2 t : Vec Ideal S2048x2048 .bf16) (ix2 k q) = argW m c (ix2 q (inCol k)) := by
  obtain ⟨e0, e1⟩ := idx2 t
  unfold iblk
  rw [View.read_apply]
  show (V m c main_v3 : S2048x2048.Idx → EReal) _ = _
  rw [← wx_apply m c k q]
  congr 1
  funext a
  apply Fin.ext
  match a with
  | ⟨0, _⟩ => show win0_2.index t (0 : Fin 2) * 2048 + 1 * k.val = k.val; rw [e0]; omega
  | ⟨1, _⟩ => show win0_2.index t (1 : Fin 2) * 2048 + 1 * q.val = q.val; rw [e1]; omega

theorem whblk_apply (c : Dev nD) (t : Fin cfg0.N) (k q : Fin 2048) :
    (iblk m c 3 t : Vec Ideal S2048x2048 .bf16) (ix2 k q) = argW m c (ix2 q (hidCol k)) := by
  obtain ⟨e0, e1⟩ := idx3 t
  unfold iblk
  rw [View.read_apply]
  show (V m c main_v5 : S2048x2048.Idx → EReal) _ = _
  rw [← wh_apply m c k q]
  congr 1
  funext a
  apply Fin.ext
  match a with
  | ⟨0, _⟩ => show win0_3.index t (0 : Fin 2) * 2048 + 1 * k.val = k.val; rw [e0]; omega
  | ⟨1, _⟩ => show win0_3.index t (1 : Fin 2) * 2048 + 1 * q.val = q.val; rw [e1]; omega

theorem whoblk_apply (c : Dev nD) (t : Fin cfg0.N) (k q : Fin 2048) :
    (iblk m c 4 t : Vec Ideal S2048x2048 .bf16) (ix2 k q) = argWho m c (ix2 q k) := by
  obtain ⟨e0, e1⟩ := idx4 t
  unfold iblk
  rw [View.read_apply]
  show (V m c main_v7 : S2048x2048.Idx → EReal) _ = _
  rw [← who_apply m c k q]
  congr 1
  funext a
  apply Fin.ext
  match a with
  | ⟨0, _⟩ => show win0_4.index t (0 : Fin 2) * 2048 + 1 * k.val = k.val; rw [e0]; omega
  | ⟨1, _⟩ => show win0_4.index t (1 : Fin 2) * 2048 + 1 * q.val = q.val; rw [e1]; omega

theorem bblk_apply (c : Dev nD) (t : Fin cfg0.N) (q : Fin 2048) :
    (iblk m c 5 t : Vec Ideal S1x2048 .f32) (ix2 (0 : Fin 1) q) = argB m c (ix1 q) := by
  obtain ⟨e0, e1⟩ := idx5 t
  unfold iblk
  rw [View.read_apply]
  show (V m c main_v10 : S1x2048.Idx → EReal) _ = _
  rw [← b_apply m c q]
  congr 1
  funext a
  apply Fin.ext
  match a with
  | ⟨0, _⟩ => show win0_5.index t (0 : Fin 2) * 1 + 1 * ((0 : Fin 1) : ℕ) = ((0 : Fin 1) : ℕ); rw [e0]; rfl
  | ⟨1, _⟩ => show win0_5.index t (1 : Fin 2) * 2048 + 1 * q.val = q.val; rw [e1]; omega

theorem boblk_apply (c : Dev nD) (t : Fin cfg0.N) (q : Fin 2048) :
    (iblk m c 6 t : Vec Ideal S1x2048 .f32) (ix2 (0 : Fin 1) q) = argBo m c (ix1 q) := by
  obtain ⟨e0, e1⟩ := idx6 t
  unfold iblk
  rw [View.read_apply]
  show (V m c main_v11 : S1x2048.Idx → EReal) _ = _
  rw [← bo_apply m c q]
  congr 1
  funext a
  apply Fin.ext
  match a with
  | ⟨0, _⟩ => show win0_6.index t (0 : Fin 2) * 1 + 1 * ((0 : Fin 1) : ℕ) = ((0 : Fin 1) : ℕ); rw [e0]; rfl
  | ⟨1, _⟩ => show win0_6.index t (1 : Fin 2) * 2048 + 1 * q.val = q.val; rw [e1]; omega

/-! ## What each point writes back -/

/-- Point `t` writes back block `t` of `newHidden` of the arguments. -/
theorem flushed_hidden (c : Dev nD) (t : Fin cfg0.N) :
    (dats m 0 c).flushed 8 t = ((cfg0.win 8).blk t).view.read (Elt Ideal) (newHidden (argX m c) (argH m c) (argW m c) (argB m c)) := by
  obtain ⟨e0, e1⟩ := idx8 t
  rw [flushed8]
  unfold out0_8
  rw [View.canon_unit_zero hz]
  simp only [View.ld_unit_zero (S := S128x2048) hz, View.ld_unit_zero (S := S2048x2048) hz, View.ld_unit_zero (S := S1x2048) hz]
  funext j
  obtain ⟨p, q, rfl⟩ : ∃ (p : Fin 128) (q : Fin 2048), j = ix2 p q := ⟨j 0, j 1, eq_ix2 j⟩
  show k0_pay1 (iblk m c 0 t) (iblk m c 2 t) (iblk m c 1 t) (iblk m c 3 t) (iblk m c 5 t) (ix2 p q)
    = (newHidden (argX m c) (argH m c) (argW m c) (argB m c)) (((cfg0.win 8).blk t).view.emb (ix2 p q))
  refine (hidden_tile_eq (argX m c) (argH m c) (argW m c) (argB m c) (iblk m c 0 t) (iblk m c 1 t) (iblk m c 2 t) (iblk m c 3 t)
    (iblk m c 5 t) (tileRow t) (xblk_apply m c t) (hblk_apply m c t) (wxblk_apply m c t) (whblk_apply m c t) (bblk_apply m c t) p q).trans ?_
  congr 1
  funext a
  apply Fin.ext
  match a with
  | ⟨0, _⟩ => show 128 * t.val + p.val = win0_8.index t (0 : Fin 2) * 128 + 1 * p.val; rw [e0]; omega
  | ⟨1, _⟩ => show q.val = win0_8.index t (1 : Fin 2) * 2048 + 1 * q.val; rw [e1]; omega

/-- Point `t` writes back block `t` of `output` of that hidden state. -/
theorem flushed_output (c : Dev nD) (t : Fin cfg0.N) :
    (dats m 0 c).flushed 7 t = ((cfg0.win 7).blk t).view.read (Elt Ideal) (output (newHidden (argX m c) (argH m c) (argW m c) (argB m c)) (argWho m c) (argBo m c)) := by
  obtain ⟨e0, e1⟩ := idx7 t
  rw [flushed7]
  unfold out0_7
  rw [View.canon_unit_zero hz]
  simp only [View.ld_unit_zero (S := S128x2048) hz, View.ld_unit_zero (S := S2048x2048) hz, View.ld_unit_zero (S := S1x2048) hz]
  funext j
  obtain ⟨p, o, rfl⟩ : ∃ (p : Fin 128) (o : Fin 2048), j = ix2 p o := ⟨j 0, j 1, eq_ix2 j⟩
  show k0_pay2 (iblk m c 0 t) (iblk m c 2 t) (iblk m c 1 t) (iblk m c 3 t) (iblk m c 5 t) (iblk m c 4 t) (iblk m c 6 t) (ix2 p o)
    = (output (newHidden (argX m c) (argH m c) (argW m c) (argB m c)) (argWho m c) (argBo m c)) (((cfg0.win 7).blk t).view.emb (ix2 p o))
  refine (output_tile_eq (argX m c) (argH m c) (argW m c) (argB m c) (argWho m c) (argBo m c) (iblk m c 0 t) (iblk m c 1 t) (iblk m c 2 t)
    (iblk m c 3 t) (iblk m c 4 t) (iblk m c 5 t) (iblk m c 6 t) (tileRow t) (xblk_apply m c t) (hblk_apply m c t) (wxblk_apply m c t)
    (whblk_apply m c t) (whoblk_apply m c t) (bblk_apply m c t) (boblk_apply m c t) p o).trans ?_
  congr 1
  funext a
  apply Fin.ext
  match a with
  | ⟨0, _⟩ => show 128 * t.val + p.val = win0_7.index t (0 : Fin 2) * 128 + 1 * p.val; rw [e0]; omega
  | ⟨1, _⟩ => show o.val = win0_7.index t (1 : Fin 2) * 2048 + 1 * o.val; rw [e1]; omega

/-! ## The 32 tiles cover each result array -/

theorem cover_hidden (i : S4096x2048.Idx) :
    ∃ t : Fin cfg0.N, (cfg0.win 8).flush t = true ∧ i ∈ ((cfg0.win 8).blk t).view.set := by
  have h0 : (i 0).val < 4096 := (i 0).isLt
  have h1 : (i 1).val < 2048 := (i 1).isLt
  have hN : cfg0.N = 32 := N_0
  have ht : (i 0).val / 128 < cfg0.N := by rw [hN]; omega
  obtain ⟨e0, e1⟩ := idx8 ⟨(i 0).val / 128, ht⟩
  refine ⟨⟨(i 0).val / 128, ht⟩, flush0_8 _, ?_⟩
  show i ∈ ((View.whole main_v12_1).slice (win0_8.rect ⟨(i 0).val / 128, ht⟩)).set
  rw [View.set_slice_whole, Rect.mem_set_unit]
  intro a
  match a with
  | ⟨0, _⟩ =>
    show win0_8.index ⟨(i 0).val / 128, ht⟩ (0 : Fin 2) * 128 ≤ (i 0).val ∧ (i 0).val < win0_8.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, ht⟩ (1 : Fin 2) * 2048 ≤ (i 1).val ∧ (i 1).val < win0_8.index ⟨(i 0).val / 128, ht⟩ (1 : Fin 2) * 2048 + 2048
    rw [e1]; omega

theorem cover_output (i : S4096x2048.Idx) :
    ∃ t : Fin cfg0.N, (cfg0.win 7).flush t = true ∧ i ∈ ((cfg0.win 7).blk t).view.set := by
  have h0 : (i 0).val < 4096 := (i 0).isLt
  have h1 : (i 1).val < 2048 := (i 1).isLt
  have hN : cfg0.N = 32 := N_0
  have ht : (i 0).val / 128 < cfg0.N := by rw [hN]; omega
  obtain ⟨e0, e1⟩ := idx7 ⟨(i 0).val / 128, ht⟩
  refine ⟨⟨(i 0).val / 128, ht⟩, flush0_7 _, ?_⟩
  show i ∈ ((View.whole main_v12_0).slice (win0_7.rect ⟨(i 0).val / 128, ht⟩)).set
  rw [View.set_slice_whole, Rect.mem_set_unit]
  intro a
  match a with
  | ⟨0, _⟩ =>
    show win0_7.index ⟨(i 0).val / 128, ht⟩ (0 : Fin 2) * 128 ≤ (i 0).val ∧ (i 0).val < win0_7.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_7.index ⟨(i 0).val / 128, ht⟩ (1 : Fin 2) * 2048 ≤ (i 1).val ∧ (i 1).val < win0_7.index ⟨(i 0).val / 128, ht⟩ (1 : Fin 2) * 2048 + 2048
    rw [e1]; omega

/-! ## The result arrays, and the run -/

theorem final_hidden (c : Dev nD) : (dats m 0 c).arrAt 8 cfg0.N = newHidden (argX m c) (argH m c) (argW m c) (argB m c) :=
  (dats m 0 c).arrAt_eq_of_cover 8 (newHidden (argX m c) (argH m c) (argW m c) (argB m c)) (fun t _ => flushed_hidden m c t) cover_hidden

theorem final_output (c : Dev nD) : (dats m 0 c).arrAt 7 cfg0.N = output (newHidden (argX m c) (argH m c) (argW m c) (argB m c)) (argWho m c) (argBo m c) :=
  (dats m 0 c).arrAt_eq_of_cover 7 (output (newHidden (argX m c) (argH m c) (argW m c) (argB m c)) (argWho m c) (argBo m c)) (fun t _ => flushed_output m c t) cover_output

/-- The kernel's run: it ends with the output array at `output newHidden` and the hidden array at `newHidden` of
    its arguments, the arguments unchanged. -/
theorem run : θ_run defs (onTc (τ := τ) (main (F := Ideal))) ⟨m, fun _ => 0, ρ⟩ fun r => ∀ c : Dev nD,
      r.2.mem ((c : Thread nD τ).loc main_v12_0) = output (newHidden (argX m c) (argH m c) (argW m c) (argB m c)) (argWho m c) (argBo m c)
      ∧ r.2.mem ((c : Thread nD τ).loc main_v12_1) = newHidden (argX m c) (argH m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_output m c), (h c).2.1.trans (final_hidden m c), (h c).2.2⟩)
    (Cert.KernelIdeal.Value.run_blocks m ρ)

end Cert.KernelIdeal.Cell

end
-- ==== Proof.lean ====
/-
  A recurrent cell's step as one tiled kernel equals its plain reference, on the extended reals.

  Both programs take a batch x [4096, 2048], the previous hidden state hid [4096, 2048], a joined weight matrix
  W [2048, 4096] with its bias, and a read-out matrix Who [2048, 2048] with its bias, and return

    newHidden[p, q] = tanh ((Σ_k x[p, k] · W[q, k] + Σ_k hid[p, k] · W[q, 2048 + k]) + b[q])
    output[p, o]    = Σ_h newHidden[p, h] · Who[o, h] + bo[o]            (CellSpec.lean)

  The reference joins [x | hid] and contracts the joined row of length 4096 with a row of W; splitting that sum at
  column 2048 gives the two half-sums (RefCell.lean). The kernel cuts W into its two halves beforehand, lays every
  weight matrix out contraction-first, and walks the batch in 32 tiles of 128 rows, each tile computing the two
  half-products, the bias, tanh, and the read-out product (CellBody.lean, CellArrays.lean, CellTile.lean); the tiles
  cover the two result arrays (CellBlocks.lean). Narrowing a float format changes nothing on the extended reals, and
  the only algebraic law used is that a finite sum may be split in two, so the inputs' finiteness is never needed.

  The kernel and its reading on the extended reals are the same text, so there is nothing to preserve; the three
  frames are the kernel's generated frame (at both instances) and the reference's run with its results dropped.
-/
import proofs.«154706_j32607391711506_1_alg».proof.Defs
import proofs.«154706_j32607391711506_1_alg».proof.Proof.Gen.Kernel
import proofs.«154706_j32607391711506_1_alg».proof.Proof.Gen.Kernel.Skeleton
import proofs.«154706_j32607391711506_1_alg».proof.Proof.Gen.Kernel.Launch
import proofs.«154706_j32607391711506_1_alg».proof.Proof.Gen.Kernel.Points
import proofs.«154706_j32607391711506_1_alg».proof.Proof.Gen.Kernel.Frame
import proofs.«154706_j32607391711506_1_alg».proof.Proof.Gen.KernelIdeal
import proofs.«154706_j32607391711506_1_alg».proof.Proof.Gen.KernelIdeal.Skeleton
import proofs.«154706_j32607391711506_1_alg».proof.Proof.Gen.KernelIdeal.Launch
import proofs.«154706_j32607391711506_1_alg».proof.Proof.Gen.KernelIdeal.Points
import proofs.«154706_j32607391711506_1_alg».proof.Proof.Gen.KernelIdeal.Frame
import proofs.«154706_j32607391711506_1_alg».proof.Proof.Gen.ReferenceIdeal
import proofs.«154706_j32607391711506_1_alg».proof.Proof.Gen.Pre_finite_inputs
import proofs.«154706_j32607391711506_1_alg».proof.Proof.Gen.KernelIdeal.Value
import proofs.«154706_j32607391711506_1_alg».proof.Proof.Gen.ReferenceIdeal.Run
import proofs.«154706_j32607391711506_1_alg».proof.Proof.Gen.ReferenceIdeal.Read
import proofs.«154706_j32607391711506_1_alg».proof.Proof.RefCell
import proofs.«154706_j32607391711506_1_alg».proof.Proof.CellBlocks
import Idealize.ShloMosaic.Adequacy
import Idealize.ShloMosaic.Init

noncomputable section

namespace Cert.Proof

open Idealize.ShloMosaic Idealize.SL.Sem Cert.Kernel

/-- The kernel as printed terminates without a fault and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its two results dropped, is its frame. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading on the extended reals. -/
theorem preserves : Cert.preserves_Kernel_KernelIdeal := trivial

/-- From arguments that agree, the kernel ends at `output newHidden` and `newHidden` of them (CellBlocks.lean) and the
    reference at its two stages, which are the same two functions (RefCell.lean). -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5⟩ := hagree c
    rw [a0, a1, a2, a3, a4, a5]
    exact (Cert.ReferenceIdeal.Read.val_main_v9_eq _ _ _ _ _ _).trans (Cert.ReferenceIdeal.Cell.output_eq _ _ _ _ _ _)
  · obtain ⟨a0, a1, a2, a3, a4, a5⟩ := hagree c
    rw [a0, a1, a2, a3]
    exact (Cert.ReferenceIdeal.Read.val_main_v5_eq _ _ _ _).trans (Cert.ReferenceIdeal.Cell.hidden_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
